-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304 : Shape := ⟨1, ![4194304]⟩
abbrev S17 : Shape := ⟨1, ![17]⟩
abbrev S17x17 : Shape := ⟨2, ![17, 17]⟩
abbrev S_ : Shape := ⟨0, ![]⟩

class Facts : Prop where
  bcast_S_S4194304 : S_.BroadcastsInDim S4194304 (![] : Fin 0 → Fin S4194304.rank)
  reducesTo_S4194304_S_d0 : S4194304.ReducesTo [0] S_
  h_S_ : 0 < S_.numel
  bcast_S_S17 : S_.BroadcastsInDim S17 (![] : Fin 0 → Fin S17.rank)
  reducesTo_S17_S_d0 : S17.ReducesTo [0] S_
  bcast_S_S17x17 : S_.BroadcastsInDim S17x17 (![] : Fin 0 → Fin S17x17.rank)
  reducesTo_S17x17_S_d0_1 : S17x17.ReducesTo [0, 1] S_

variable [Facts]

def fn_part1 {F : FTy → Type} [FloatOps F] (main_arg4 : FVec F S17x17 .f32) (main_v13 : IVec S_ 1) (main_v16 : IVec S17 1) : IVec S_ 1 :=
  let main_c_5 : IVec S_ 1 := constantI S_ 1 1#1
  let main_v17 : IVec S_ 1 := (fun x v => Host.reduce IntOp.andi x v reducesTo_S17_S_d0 h_S_) main_v16 main_c_5
  let main_v18 : IVec S_ 1 := andi main_v13 main_v17
  let main_v19 : FVec F S17x17 .f32 := Host.absf main_arg4
  let main_cst_6 : FVec F S_ .f32 := constant S_ .f32 0x7F800000#32
  let main_v20 : FVec F S17x17 .f32 := broadcastInDim S17x17 ![] bcast_S_S17x17 main_cst_6
  let main_v21 : IVec S17x17 1 := cmpf .olt main_v19 main_v20
  let main_c_7 : IVec S_ 1 := constantI S_ 1 1#1
  let main_v22 : IVec S_ 1 := (fun x v => Host.reduce IntOp.andi x v reducesTo_S17x17_S_d0_1 h_S_) main_v21 main_c_7
  let main_v23 : IVec S_ 1 := andi main_v18 main_v22
  main_v23

def fn {F : FTy → Type} [FloatOps F] (main_arg0 : FVec F S4194304 .f32) (main_arg1 : FVec F S4194304 .f32) (main_arg2 : FVec F S17 .f32) (main_arg3 : FVec F S17 .f32) (main_arg4 : FVec F S17x17 .f32) : IVec S_ 1 :=
  let main_v0 : FVec F S4194304 .f32 := Host.absf main_arg0
  let main_cst : FVec F S_ .f32 := constant S_ .f32 0x7F800000#32
  let main_v1 : FVec F S4194304 .f32 := broadcastInDim S4194304 ![] bcast_S_S4194304 main_cst
  let main_v2 : IVec S4194304 1 := cmpf .olt main_v0 main_v1
  let main_c : IVec S_ 1 := constantI S_ 1 1#1
  let main_v3 : IVec S_ 1 := (fun x v => Host.reduce IntOp.andi x v reducesTo_S4194304_S_d0 h_S_) main_v2 main_c
  let main_v4 : FVec F S4194304 .f32 := Host.absf main_arg1
  let main_cst_0 : FVec F S_ .f32 := constant S_ .f32 0x7F800000#32
  let main_v5 : FVec F S4194304 .f32 := broadcastInDim S4194304 ![] bcast_S_S4194304 main_cst_0
  let main_v6 : IVec S4194304 1 := cmpf .olt main_v4 main_v5
  let main_c_1 : IVec S_ 1 := constantI S_ 1 1#1
  let main_v7 : IVec S_ 1 := (fun x v => Host.reduce IntOp.andi x v reducesTo_S4194304_S_d0 h_S_) main_v6 main_c_1
  let main_v8 : IVec S_ 1 := andi main_v3 main_v7
  let main_v9 : FVec F S17 .f32 := Host.absf main_arg2
  let main_cst_2 : FVec F S_ .f32 := constant S_ .f32 0x7F800000#32
  let main_v10 : FVec F S17 .f32 := broadcastInDim S17 ![] bcast_S_S17 main_cst_2
  let main_v11 : IVec S17 1 := cmpf .olt main_v9 main_v10
  let main_c_3 : IVec S_ 1 := constantI S_ 1 1#1
  let main_v12 : IVec S_ 1 := (fun x v => Host.reduce IntOp.andi x v reducesTo_S17_S_d0 h_S_) main_v11 main_c_3
  let main_v13 : IVec S_ 1 := andi main_v8 main_v12
  let main_v14 : FVec F S17 .f32 := Host.absf main_arg3
  let main_cst_4 : FVec F S_ .f32 := constant S_ .f32 0x7F800000#32
  let main_v15 : FVec F S17 .f32 := broadcastInDim S17 ![] bcast_S_S17 main_cst_4
  let main_v16 : IVec S17 1 := cmpf .olt main_v14 main_v15
  fn_part1 (F := F) main_arg4 main_v13 main_v16
-- ==== Kernel.lean ====
abbrev S4194304 : Shape := ⟨1, ![4194304]⟩
abbrev S17 : Shape := ⟨1, ![17]⟩
abbrev S17x17 : Shape := ⟨2, ![17, 17]⟩
abbrev S16 : Shape := ⟨1, ![16]⟩
abbrev S16x1 : Shape := ⟨2, ![16, 1]⟩
abbrev S16x16 : Shape := ⟨2, ![16, 16]⟩
abbrev S65536 : Shape := ⟨1, ![65536]⟩
abbrev S1x65536 : Shape := ⟨2, ![1, 65536]⟩
abbrev S16x65536 : Shape := ⟨2, ![16, 65536]⟩
abbrev S1x1 : Shape := ⟨2, ![1, 1]⟩
abbrev S1x16 : Shape := ⟨2, ![1, 16]⟩

abbrev nBuf : Space → Nat
  | .hbm => 20
  | .vmem => 16
  | .smem => 0
  | _ => 0

abbrev bufTy : (tb : Table) → Fin (tcTables nBuf tb) → BufTy
  | .hbm, ⟨0, _⟩ => ⟨S4194304, .f32⟩
  | .hbm, ⟨1, _⟩ => ⟨S4194304, .f32⟩
  | .hbm, ⟨2, _⟩ => ⟨S17, .f32⟩
  | .hbm, ⟨3, _⟩ => ⟨S17, .f32⟩
  | .hbm, ⟨4, _⟩ => ⟨S17x17, .f32⟩
  | .hbm, ⟨5, _⟩ => ⟨S16, .f32⟩
  | .hbm, ⟨6, _⟩ => ⟨S16x1, .f32⟩
  | .hbm, ⟨7, _⟩ => ⟨S16, .f32⟩
  | .hbm, ⟨8, _⟩ => ⟨S16x1, .f32⟩
  | .hbm, ⟨9, _⟩ => ⟨S16x1, .f32⟩
  | .hbm, ⟨10, _⟩ => ⟨S16, .f32⟩
  | .hbm, ⟨11, _⟩ => ⟨S16x1, .f32⟩
  | .hbm, ⟨12, _⟩ => ⟨S16, .f32⟩
  | .hbm, ⟨13, _⟩ => ⟨S16x1, .f32⟩
  | .hbm, ⟨14, _⟩ => ⟨S16x1, .f32⟩
  | .hbm, ⟨15, _⟩ => ⟨S16x16, .f32⟩
  | .hbm, ⟨16, _⟩ => ⟨S16x16, .f32⟩
  | .hbm, ⟨17, _⟩ => ⟨S16x16, .f32⟩
  | .hbm, ⟨18, _⟩ => ⟨S16x16, .f32⟩
  | .hbm, ⟨19, _⟩ => ⟨S4194304, .f32⟩
  | .local _ .vmem, ⟨0, _⟩ => ⟨S65536, .f32⟩
  | .local _ .vmem, ⟨1, _⟩ => ⟨S65536, .f32⟩
  | .local _ .vmem, ⟨2, _⟩ => ⟨S65536, .f32⟩
  | .local _ .vmem, ⟨3, _⟩ => ⟨S65536, .f32⟩
  | .local _ .vmem, ⟨4, _⟩ => ⟨S16x1, .f32⟩
  | .local _ .vmem, ⟨5, _⟩ => ⟨S16x1, .f32⟩
  | .local _ .vmem, ⟨6, _⟩ => ⟨S16x1, .f32⟩
  | .local _ .vmem, ⟨7, _⟩ => ⟨S16x1, .f32⟩
  | .local _ .vmem, ⟨8, _⟩ => ⟨S16x1, .f32⟩
  | .local _ .vmem, ⟨9, _⟩ => ⟨S16x1, .f32⟩
  | .local _ .vmem, ⟨10, _⟩ => ⟨S16x16, .f32⟩
  | .local _ .vmem, ⟨11, _⟩ => ⟨S16x16, .f32⟩
  | .local _ .vmem, ⟨12, _⟩ => ⟨S16x16, .f32⟩
  | .local _ .vmem, ⟨13, _⟩ => ⟨S16x16, .f32⟩
  | .local _ .vmem, ⟨14, _⟩ => ⟨S65536, .f32⟩
  | .local _ .vmem, ⟨15, _⟩ => ⟨S65536, .f32⟩
  | _, _ => ⟨S4194304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S65536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S16x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S16x16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S65536 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  slices_S17_S16_0 : S17.Slices ![0] S16
  shapeCasts_S16_S16x1 : S16.ShapeCasts S16x1
  slices_S17_S16_1 : S17.Slices ![1] S16
  slices_S17x17_S16x16_0_0 : S17x17.Slices ![0, 0] S16x16
  slices_S17x17_S16x16_1_0 : S17x17.Slices ![1, 0] S16x16
  slices_S17x17_S16x16_0_1 : S17x17.Slices ![0, 1] S16x16
  slices_S17x17_S16x16_1_1 : S17x17.Slices ![1, 1] S16x16
  inb_S65536_S65536_0 : ∀ a, (![0] : Fin 1 → Nat) a + S65536.size a ≤ S65536.size a
  h_S65536 : 0 < S65536.numel
  inb_S16x1_S16x1_0_0 : ∀ a, (![0, 0] : Fin 2 → Nat) a + S16x1.size a ≤ S16x1.size a
  h_S16x1 : 0 < S16x1.numel
  shapeCasts_S16x1_S16x1 : S16x1.ShapeCasts S16x1
  inb_S16x16_S16x16_0_0 : ∀ a, (![0, 0] : Fin 2 → Nat) a + S16x16.size a ≤ S16x16.size a
  h_S16x16 : 0 < S16x16.numel
  shapeCasts_S16x16_S16x16 : S16x16.ShapeCasts S16x16
  shapeCasts_S65536_S1x65536 : S65536.ShapeCasts S1x65536
  broadcasts_S1x65536_S16x65536 : S1x65536.Broadcasts S16x65536
  broadcasts_S16x1_S16x65536 : S16x1.Broadcasts S16x65536
  slices_S16x1_o0_0_S1x1 : S16x1.Slices ![0, 0] S1x1
  inpos_S1x1_p0_0 : ∀ a, (![0, 0] : Fin 2 → Nat) a < S1x1.size a
  slices_S16x16_o0_0_S1x16 : S16x16.Slices ![0, 0] S1x16
  shapeCasts_S1x16_S16 : S1x16.ShapeCasts S16
  slices_S16x1_o1_0_S1x1 : S16x1.Slices ![1, 0] S1x1
  slices_S16x16_o1_0_S1x16 : S16x16.Slices ![1, 0] S1x16
  slices_S16x1_o2_0_S1x1 : S16x1.Slices ![2, 0] S1x1
  slices_S16x16_o2_0_S1x16 : S16x16.Slices ![2, 0] S1x16
  slices_S16x1_o3_0_S1x1 : S16x1.Slices ![3, 0] S1x1
  slices_S16x16_o3_0_S1x16 : S16x16.Slices ![3, 0] S1x16
  slices_S16x1_o4_0_S1x1 : S16x1.Slices ![4, 0] S1x1
  slices_S16x16_o4_0_S1x16 : S16x16.Slices ![4, 0] S1x16
  slices_S16x1_o5_0_S1x1 : S16x1.Slices ![5, 0] S1x1
  slices_S16x16_o5_0_S1x16 : S16x16.Slices ![5, 0] S1x16
  slices_S16x1_o6_0_S1x1 : S16x1.Slices ![6, 0] S1x1
  slices_S16x16_o6_0_S1x16 : S16x16.Slices ![6, 0] S1x16
  slices_S16x1_o7_0_S1x1 : S16x1.Slices ![7, 0] S1x1
  slices_S16x16_o7_0_S1x16 : S16x16.Slices ![7, 0] S1x16
  slices_S16x1_o8_0_S1x1 : S16x1.Slices ![8, 0] S1x1
  slices_S16x16_o8_0_S1x16 : S16x16.Slices ![8, 0] S1x16
  slices_S16x1_o9_0_S1x1 : S16x1.Slices ![9, 0] S1x1
  slices_S16x16_o9_0_S1x16 : S16x16.Slices ![9, 0] S1x16
  slices_S16x1_o10_0_S1x1 : S16x1.Slices ![10, 0] S1x1
  slices_S16x16_o10_0_S1x16 : S16x16.Slices ![10, 0] S1x16
  slices_S16x1_o11_0_S1x1 : S16x1.Slices ![11, 0] S1x1
  slices_S16x16_o11_0_S1x16 : S16x16.Slices ![11, 0] S1x16
  slices_S16x1_o12_0_S1x1 : S16x1.Slices ![12, 0] S1x1
  slices_S16x16_o12_0_S1x16 : S16x16.Slices ![12, 0] S1x16
  slices_S16x1_o13_0_S1x1 : S16x1.Slices ![13, 0] S1x1
  slices_S16x16_o13_0_S1x16 : S16x16.Slices ![13, 0] S1x16
  slices_S16x1_o14_0_S1x1 : S16x1.Slices ![14, 0] S1x1
  slices_S16x16_o14_0_S1x16 : S16x16.Slices ![14, 0] S1x16
  slices_S16x1_o15_0_S1x1 : S16x1.Slices ![15, 0] S1x1
  slices_S16x16_o15_0_S1x16 : S16x16.Slices ![15, 0] S1x16
  reduces_S16x65536_S65536 : S16x65536.Reduces [0] S65536
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S65536.size a ≤ S4194304.size a
  hwx0_0 : ∀ i : grid0.Coords, EltTy.bits .f32 = 32 ∨ (Rect.block (s := S4194304) S65536.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S65536.size a ≤ S4194304.size a
  hwx0_1 : ∀ i : grid0.Coords, EltTy.bits .f32 = 32 ∨ (Rect.block (s := S4194304) S65536.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x1.size a ≤ S16x1.size a
  hwx0_2 : ∀ i : grid0.Coords, EltTy.bits .f32 = 32 ∨ (Rect.block (s := S16x1) S16x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x1.size a ≤ S16x1.size a
  hwx0_3 : ∀ i : grid0.Coords, EltTy.bits .f32 = 32 ∨ (Rect.block (s := S16x1) S16x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x1.size a ≤ S16x1.size a
  hwx0_4 : ∀ i : grid0.Coords, EltTy.bits .f32 = 32 ∨ (Rect.block (s := S16x1) S16x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x1.size a ≤ S16x1.size a
  hwx0_5 : ∀ i : grid0.Coords, EltTy.bits .f32 = 32 ∨ (Rect.block (s := S16x1) S16x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16x1.size a ≤ S16x1.size a
  hwx0_6 : ∀ i : grid0.Coords, EltTy.bits .f32 = 32 ∨ (Rect.block (s := S16x1) S16x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S16x1.size a ≤ S16x1.size a
  hwx0_7 : ∀ i : grid0.Coords, EltTy.bits .f32 = 32 ∨ (Rect.block (s := S16x1) S16x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S16x16.size a ≤ S16x16.size a
  hwx0_8 : ∀ i : grid0.Coords, EltTy.bits .f32 = 32 ∨ (Rect.block (s := S16x16) S16x16.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S16x16.size a ≤ S16x16.size a
  hwx0_9 : ∀ i : grid0.Coords, EltTy.bits .f32 = 32 ∨ (Rect.block (s := S16x16) S16x16.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S16x16.size a ≤ S16x16.size a
  hwx0_10 : ∀ i : grid0.Coords, EltTy.bits .f32 = 32 ∨ (Rect.block (s := S16x16) S16x16.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S16x16.size a ≤ S16x16.size a
  hwx0_11 : ∀ i : grid0.Coords, EltTy.bits .f32 = 32 ∨ (Rect.block (s := S16x16) S16x16.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S65536.size a ≤ S4194304.size a
  hwx0_12 : ∀ i : grid0.Coords, EltTy.bits .f32 = 32 ∨ (Rect.block (s := S4194304) S65536.size (cc0_transform_12 i) (hinb0_12 i)).WholeWords (EltTy.packing .f32)

variable [Facts₀]

abbrev win0_0 : Pipeline.Window sig grid0 :=
  Pipeline.Window.ofSpec (Memref.whole main_arg0) S65536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S65536.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S16x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S16x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S16x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S16x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S16x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S16x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S16x16.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S16x16.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v12) S16x16.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v13) S16x16.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v14) S65536.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S4194304 : Shape := ⟨1, ![4194304]⟩
abbrev S17 : Shape := ⟨1, ![17]⟩
abbrev S17x17 : Shape := ⟨2, ![17, 17]⟩
abbrev S16 : Shape := ⟨1, ![16]⟩
abbrev S4194304x1 : Shape := ⟨2, ![4194304, 1]⟩
abbrev S1x16 : Shape := ⟨2, ![1, 16]⟩
abbrev S4194304x16 : Shape := ⟨2, ![4194304, 16]⟩
abbrev S_ : Shape := ⟨0, ![]⟩
abbrev S16x16 : Shape := ⟨2, ![16, 16]⟩

abbrev nBuf : Space → Nat
  | .hbm => 88
  | .vmem => 0
  | .smem => 0
  | _ => 0

abbrev bufTy : (tb : Table) → Fin (tcTables nBuf tb) → BufTy
  | .hbm, ⟨0, _⟩ => ⟨S4194304, .f32⟩
  | .hbm, ⟨1, _⟩ => ⟨S4194304, .f32⟩
  | .hbm, ⟨2, _⟩ => ⟨S17, .f32⟩
  | .hbm, ⟨3, _⟩ => ⟨S17, .f32⟩
  | .hbm, ⟨4, _⟩ => ⟨S17x17, .f32⟩
  | .hbm, ⟨5, _⟩ => ⟨S16, .f32⟩
  | .hbm, ⟨6, _⟩ => ⟨S16, .f32⟩
  | .hbm, ⟨7, _⟩ => ⟨S16, .f32⟩
  | .hbm, ⟨8, _⟩ => ⟨S16, .f32⟩
  | .hbm, ⟨9, _⟩ => ⟨S16, .f32⟩
  | .hbm, ⟨10, _⟩ => ⟨S16, .f32⟩
  | .hbm, ⟨11, _⟩ => ⟨S4194304x1, .f32⟩
  | .hbm, ⟨12, _⟩ => ⟨S4194304x1, .f32⟩
  | .hbm, ⟨13, _⟩ => ⟨S1x16, .f32⟩
  | .hbm, ⟨14, _⟩ => ⟨S4194304x16, .f32⟩
  | .hbm, ⟨15, _⟩ => ⟨S4194304x16, .f32⟩
  | .hbm, ⟨16, _⟩ => ⟨S4194304x16, .f32⟩
  | .hbm, ⟨17, _⟩ => ⟨S_, .f32⟩
  | .hbm, ⟨18, _⟩ => ⟨S4194304x16, .f32⟩
  | .hbm, ⟨19, _⟩ => ⟨S4194304x16, .f32⟩
  | .hbm, ⟨20, _⟩ => ⟨S1x16, .f32⟩
  | .hbm, ⟨21, _⟩ => ⟨S4194304x16, .f32⟩
  | .hbm, ⟨22, _⟩ => ⟨S4194304x16, .f32⟩
  | .hbm, ⟨23, _⟩ => ⟨S4194304x16, .f32⟩
  | .hbm, ⟨24, _⟩ => ⟨S_, .f32⟩
  | .hbm, ⟨25, _⟩ => ⟨S4194304x16, .f32⟩
  | .hbm, ⟨26, _⟩ => ⟨S4194304x16, .f32⟩
  | .hbm, ⟨27, _⟩ => ⟨S4194304x16, .f32⟩
  | .hbm, ⟨28, _⟩ => ⟨S1x16, .f32⟩
  | .hbm, ⟨29, _⟩ => ⟨S4194304x16, .f32⟩
  | .hbm, ⟨30, _⟩ => ⟨S4194304x16, .f32⟩
  | .hbm, ⟨31, _⟩ => ⟨S1x16, .f32⟩
  | .hbm, ⟨32, _⟩ => ⟨S4194304x16, .f32⟩
  | .hbm, ⟨33, _⟩ => ⟨S4194304x16, .f32⟩
  | .hbm, ⟨34, _⟩ => ⟨S4194304x16, .f32⟩
  | .hbm, ⟨35, _⟩ => ⟨S_, .f32⟩
  | .hbm, ⟨36, _⟩ => ⟨S4194304x16, .f32⟩
  | .hbm, ⟨37, _⟩ => ⟨S4194304x16, .f32⟩
  | .hbm, ⟨38, _⟩ => ⟨S1x16, .f32⟩
  | .hbm, ⟨39, _⟩ => ⟨S4194304x16, .f32⟩
  | .hbm, ⟨40, _⟩ => ⟨S4194304x16, .f32⟩
  | .hbm, ⟨41, _⟩ => ⟨S4194304x16, .f32⟩
  | .hbm, ⟨42, _⟩ => ⟨S_, .f32⟩
  | .hbm, ⟨43, _⟩ => ⟨S4194304x16, .f32⟩
  | .hbm, ⟨44, _⟩ => ⟨S4194304x16, .f32⟩
  | .hbm, ⟨45, _⟩ => ⟨S4194304x16, .f32⟩
  | .hbm, ⟨46, _⟩ => ⟨S1x16, .f32⟩
  | .hbm, ⟨47, _⟩ => ⟨S4194304x16, .f32⟩
  | .hbm, ⟨48, _⟩ => ⟨S4194304x16, .f32⟩
  | .hbm, ⟨49, _⟩ => ⟨S1x16, .f32⟩
  | .hbm, ⟨50, _⟩ => ⟨S4194304x16, .f32⟩
  | .hbm, ⟨51, _⟩ => ⟨S4194304x16, .f32⟩
  | .hbm, ⟨52, _⟩ => ⟨S4194304x16, .f32⟩
  | .hbm, ⟨53, _⟩ => ⟨S1x16, .f32⟩
  | .hbm, ⟨54, _⟩ => ⟨S4194304x16, .f32⟩
  | .hbm, ⟨55, _⟩ => ⟨S4194304x16, .f32⟩
  | .hbm, ⟨56, _⟩ => ⟨S1x16, .f32⟩
  | .hbm, ⟨57, _⟩ => ⟨S4194304x16, .f32⟩
  | .hbm, ⟨58, _⟩ => ⟨S4194304x16, .f32⟩
  | .hbm, ⟨59, _⟩ => ⟨S4194304x16, .f32⟩
  | .hbm, ⟨60, _⟩ => ⟨S1x16, .f32⟩
  | .hbm, ⟨61, _⟩ => ⟨S4194304x16, .f32⟩
  | .hbm, ⟨62, _⟩ => ⟨S4194304x16, .f32⟩
  | .hbm, ⟨63, _⟩ => ⟨S_, .f32⟩
  | .hbm, ⟨64, _⟩ => ⟨S4194304x16, .f32⟩
  | .hbm, ⟨65, _⟩ => ⟨S4194304x16, .f32⟩
  | .hbm, ⟨66, _⟩ => ⟨S4194304x16, .f32⟩
  | .hbm, ⟨67, _⟩ => ⟨S4194304x16, .f32⟩
  | .hbm, ⟨68, _⟩ => ⟨S_, .f32⟩
  | .hbm, ⟨69, _⟩ => ⟨S4194304x16, .f32⟩
  | .hbm, ⟨70, _⟩ => ⟨S4194304x16, .f32⟩
  | .hbm, ⟨71, _⟩ => ⟨S4194304x16, .f32⟩
  | .hbm, ⟨72, _⟩ => ⟨S4194304x16, .f32⟩
  | .hbm, ⟨73, _⟩ => ⟨S16x16, .f32⟩
  | .hbm, ⟨74, _⟩ => ⟨S16x16, .f32⟩
  | .hbm, ⟨75, _⟩ => ⟨S16x16, .f32⟩
  | .hbm, ⟨76, _⟩ => ⟨S16x16, .f32⟩
  | .hbm, ⟨77, _⟩ => ⟨S4194304x16, .f32⟩
  | .hbm, ⟨78, _⟩ => ⟨S4194304x16, .f32⟩
  | .hbm, ⟨79, _⟩ => ⟨S4194304x16, .f32⟩
  | .hbm, ⟨80, _⟩ => ⟨S4194304x16, .f32⟩
  | .hbm, ⟨81, _⟩ => ⟨S4194304x16, .f32⟩
  | .hbm, ⟨82, _⟩ => ⟨S4194304x16, .f32⟩
  | .hbm, ⟨83, _⟩ => ⟨S4194304x16, .f32⟩
  | .hbm, ⟨84, _⟩ => ⟨S4194304x16, .f32⟩
  | .hbm, ⟨85, _⟩ => ⟨S4194304x16, .f32⟩
  | .hbm, ⟨86, _⟩ => ⟨S_, .f32⟩
  | .hbm, ⟨87, _⟩ => ⟨S4194304, .f32⟩
  | _, _ => ⟨S4194304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_cst : Ref sig .tc := ⟨.hbm, 17, rfl⟩
abbrev main_call0_v0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call1_cst : Ref sig .tc := ⟨.hbm, 24, rfl⟩
abbrev main_call1_v0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_call2_cst : Ref sig .tc := ⟨.hbm, 35, rfl⟩
abbrev main_call2_v0 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_call3_cst : Ref sig .tc := ⟨.hbm, 42, rfl⟩
abbrev main_call3_v0 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_0 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_cst_1 : Ref sig .tc := ⟨.hbm, 86, rfl⟩
abbrev main_v71 : Ref sig .tc := ⟨.hbm, 87, rfl⟩

abbrev nD : Nat := 1
abbrev τ : Topo := Topo.v7x

variable {F : FTy → Type} [FloatOps F]

class Facts₀ : Prop where
  slices_S17_S16_0 : S17.Slices ![0] S16
  slices_S17_S16_1 : S17.Slices ![1] S16
  bcast_S4194304_S4194304x1_0 : S4194304.BroadcastsInDim S4194304x1 (![0] : Fin 1 → Fin S4194304x1.rank)
  bcast_S16_S1x16_1 : S16.BroadcastsInDim S1x16 (![1] : Fin 1 → Fin S1x16.rank)
  bcast_S4194304x1_S4194304x16_0_1 : S4194304x1.BroadcastsInDim S4194304x16 (![0, 1] : Fin 2 → Fin S4194304x16.rank)
  bcast_S1x16_S4194304x16_0_1 : S1x16.BroadcastsInDim S4194304x16 (![0, 1] : Fin 2 → Fin S4194304x16.rank)
  bcast_S_S4194304x16 : S_.BroadcastsInDim S4194304x16 (![] : Fin 0 → Fin S4194304x16.rank)
  slices_S17x17_S16x16_0_0 : S17x17.Slices ![0, 0] S16x16
  slices_S17x17_S16x16_1_0 : S17x17.Slices ![1, 0] S16x16
  slices_S17x17_S16x16_0_1 : S17x17.Slices ![0, 1] S16x16
  slices_S17x17_S16x16_1_1 : S17x17.Slices ![1, 1] S16x16
  reducesTo_S4194304x16_S4194304_d1 : S4194304x16.ReducesTo [1] S4194304
  h_S_ : 0 < S_.numel
  dot_S4194304x16_S16x16_S4194304x16_1_0_0_1_n_n_wf : DotDims.WF S4194304x16 S16x16 S4194304x16 [1] [0] [0] [1] [] []

variable [Facts₀]

def dot_S4194304x16_S16x16_S4194304x16_1_0_0_1_n_n : DotDims S4194304x16 S16x16 S4194304x16 where
  lhsContracting := [1]
  rhsContracting := [0]
  lhsNonContracting := [0]
  rhsNonContracting := [1]
  lhsBatch := []
  rhsBatch := []
  wf := dot_S4194304x16_S16x16_S4194304x16_1_0_0_1_n_n_wf

class Facts : Prop extends Facts₀ where

variable [Facts]
-- ==== Proof.Spec.lean ====
/-
  The function both programs compute, stated once over the extended reals.

  Knots p_0 … p_16 cut an axis into sixteen cells.  For a query coordinate v and the cell [p, q] of width d = q - p,
  the cell's "ramp"  (max (v - p) 0 - max (v - q) 0) / d  rises from 0 to 1 across the cell, and  (v - p) / d  is the
  query's relative position measured from the cell's left knot.  Their products give the two linear weights of the
  cell: the ramp times (1 - position) goes with the left knot, the ramp times the position with the right knot.
  The result at a query (x, y) is the sum over ALL pairs of an x-cell i and a y-cell j (no masking to the enclosing
  cell) of the four corner values z of the pair, each times its x-weight and its y-weight; written with the sum over
  the x-cells inside, as a 16-term sum over j of
      (Σ_i lo_i · z(i, j) + Σ_i hi_i · z(i+1, j)) · lo_j + (Σ_i lo_i · z(i, j+1) + Σ_i hi_i · z(i+1, j+1)) · hi_j.
  Only the commutative-monoid laws of + on the extended reals are ever used between the two programs' arrangements
  of these sums, so no finiteness is needed: a zero cell width gives the same (junk) quotient on both sides.
-/
import Idealize.ShloMosaic.PureOps.Ideal
import Idealize.ShloMosaic.PureOps.Ideal.Laws
import Idealize.ShloMosaic.Lib.ValueIdx

noncomputable section

namespace Cert.Bilinear

open Idealize.ShloMosaic Idealize.ShloMosaic.ValueIdx

/-- The cell's ramp at `v`: `(max (v - p) 0 - max (v - q) 0) / d`, the zero being the f32 zero word read exactly. -/
def ramp (v p q d : EReal) : EReal :=
  Ideal.div (max (v - p) (Ideal.ofBits .f32 0x00000000#32) - max (v - q) (Ideal.ofBits .f32 0x00000000#32)) d

/-- The query's position relative to the cell's left knot: `(v - p) / d`. -/
def pos (v p d : EReal) : EReal := Ideal.div (v - p) d

/-- The weight of the cell's LEFT knot: ramp times one minus the position (the one is the f32 word of 1.0). -/
def wLo (v p q d : EReal) : EReal := ramp v p q d * (Ideal.ofBits .f32 0x3F800000#32 - pos v p d)

/-- The weight of the cell's RIGHT knot: ramp times the position. -/
def wHi (v p q d : EReal) : EReal := ramp v p q d * pos v p d

/-- The interpolant at one query from the cells' data given cell by cell: left knots, right knots and widths on each
    axis (`a0 a1 ad` for x, `b0 b1 bd` for y) and the four corner tables. -/
def interpCells (xv yv : EReal) (a0 a1 ad b0 b1 bd : Fin 16 → EReal) (z00 z10 z01 z11 : Fin 16 → Fin 16 → EReal) : EReal :=
  ∑ j : Fin 16,
    ((∑ i : Fin 16, wLo xv (a0 i) (a1 i) (ad i) * z00 i j + ∑ i : Fin 16, wHi xv (a0 i) (a1 i) (ad i) * z10 i j)
        * wLo yv (b0 j) (b1 j) (bd j)
      + (∑ i : Fin 16, wLo xv (a0 i) (a1 i) (ad i) * z01 i j + ∑ i : Fin 16, wHi xv (a0 i) (a1 i) (ad i) * z11 i j)
        * wHi yv (b0 j) (b1 j) (bd j))

/-- The interpolant at one query from the seventeen knots of each axis and the 17 × 17 table of values: cell `i` of
    an axis runs from knot `i` to knot `i + 1`, its width their difference. -/
def interp (xv yv : EReal) (xp yp : Fin 17 → EReal) (z : Fin 17 → Fin 17 → EReal) : EReal :=
  interpCells xv yv
    (fun i => xp i.castSucc) (fun i => xp i.succ) (fun i => xp i.succ - xp i.castSucc)
    (fun j => yp j.castSucc) (fun j => yp j.succ) (fun j => yp j.succ - yp j.castSucc)
    (fun i j => z i.castSucc j.castSucc) (fun i j => z i.succ j.castSucc)
    (fun i j => z i.castSucc j.succ) (fun i j => z i.succ j.succ)

/-- The whole result array: query `n` of the 4194304 reads its own coordinates and the shared knots and table. -/
def G (x y : FVec Ideal ⟨1, ![4194304]⟩ .f32) (xp yp : FVec Ideal ⟨1, ![17]⟩ .f32) (z : FVec Ideal ⟨2, ![17, 17]⟩ .f32) :
    FVec Ideal ⟨1, ![4194304]⟩ .f32 :=
  fun n => interp (x n) (y n) (fun a => xp (ix1 a)) (fun a => yp (ix1 a)) (fun a b => z (ix2 a b))

/-- The accumulation order of one program: starting from the zero word, cell after cell, first the left-knot term then
    the right-knot term.  As a sum of extended reals it is the two sums taken apart (+ is associative and commutative
    there, and the zero word is 0). -/
theorem interleaved_sum (A B : Fin 16 → EReal) :
    Ideal.ofBits .f32 0x00000000#32 + A 0 + B 0 + A 1 + B 1 + A 2 + B 2 + A 3 + B 3 + A 4 + B 4 + A 5 + B 5 + A 6 + B 6 + A 7 + B 7
      + A 8 + B 8 + A 9 + B 9 + A 10 + B 10 + A 11 + B 11 + A 12 + B 12 + A 13 + B 13 + A 14 + B 14 + A 15 + B 15
      = ∑ i : Fin 16, A i + ∑ i : Fin 16, B i := by
  rw [Ideal.ofBits_zero_f32, zero_add]
  have hA : ∑ i : Fin 16, A i = A 0 + A 1 + A 2 + A 3 + A 4 + A 5 + A 6 + A 7 + A 8 + A 9 + A 10 + A 11 + A 12 + A 13 + A 14 + A 15 := by
    simp only [Fin.sum_univ_castSucc, Fin.sum_univ_zero, zero_add]; rfl
  have hB : ∑ i : Fin 16, B i = B 0 + B 1 + B 2 + B 3 + B 4 + B 5 + B 6 + B 7 + B 8 + B 9 + B 10 + B 11 + B 12 + B 13 + B 14 + B 15 := by
    simp only [Fin.sum_univ_castSucc, Fin.sum_univ_zero, zero_add]; rfl
  rw [hA, hB]
  ac_rfl

end Cert.Bilinear

end
-- ==== Proof.Layout.lean ====
/-
  Small re-layouts read at an index: a column broadcast across a row axis, a vector stood up as a column, one row cut
  out of a matrix, the single entry of a 1 × 1 matrix, and a sum down the rows of a matrix.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.Relayout

open Idealize.ShloMosaic Idealize.ShloMosaic.ValueIdx

variable {α : Type}

/-- An `[a, 1]` column broadcast to `[a, b]` reads, at `(r, c)`, the column's entry of row `r`. -/
theorem column_broadcast_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- An `[a]` vector cast to an `[a, 1]` column reads, at `(r, u)`, the vector at `r`, whatever the unit coordinate. -/
theorem vector_as_column_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A one-row cut of a matrix from row `o` exists only when `o` is a row of the matrix. -/
theorem row_of_slice {n0 n1 m o : ℕ} (h : (⟨2, ![n0, n1]⟩ : Shape).Slices ![o, 0] ⟨2, ![1, m]⟩) : o < n0 := by
  obtain ⟨_, hb⟩ := h
  have h0 := hb (0 : Fin 2)
  have h1 : ((![o, 0] : Fin 2 → ℕ) 0) + 1 ≤ n0 := h0
  simpa using h1

/-- The one-row cut of a matrix from row `o` reads, at `(u, c)`, the matrix at `(o, c)`. -/
theorem row_slice_apply {n0 n1 o : ℕ} (X : (⟨2, ![n0, n1]⟩ : Shape).Idx → α)
    (h : (⟨2, ![n0, n1]⟩ : Shape).Slices ![o, 0] ⟨2, ![1, n1]⟩) (u : Fin 1) (c : Fin n1) :
    extractStridedSlice ⟨2, ![1, n1]⟩ ![o, 0] X h (ix2 u c) = X (ix2 (⟨o, row_of_slice h⟩ : Fin n0) c) :=
  slice2_axis0_apply o X h u c ⟨o, row_of_slice h⟩ (by have := u.isLt; show o = o + u.val; omega)

/-- The entry of a `1 × 1` matrix extracted at position `(0, 0)`. -/
theorem extract_unit_apply (x : (⟨2, ![1, 1]⟩ : Shape).Idx → α) (h : ∀ a, (![0, 0] : Fin 2 → ℕ) a < (⟨2, ![1, 1]⟩ : Shape).size a) :
    extractAt ![0, 0] x h = x (ix2 (0 : Fin 1) (0 : Fin 1)) := by
  unfold extractAt
  refine congrArg x (funext fun a => ?_)
  match a with
  | ⟨0, _⟩ => rfl
  | ⟨1, _⟩ => rfl

/-- A float sum down the rows of an `[a, b]` matrix, read exactly at column `c`: the sum over the rows. -/
theorem row_sum_apply {a b : ℕ} (src : FVec Ideal ⟨2, ![a, b]⟩ .f32) (acc : BitVec FTy.f32.bits)
    (h : (⟨2, ![a, b]⟩ : Shape).Reduces [0] ⟨1, ![b]⟩) (hφ : FKind.Formats .f32) (hacc : acc = FKind.add.neutral .f32 hφ) (c : Fin b) :
    multiReduction .add [0] ⟨1, ![b]⟩ src acc h hφ hacc (ix1 c) = ∑ r : Fin a, src (ix2 r c) := by
  refine (Ideal.multiReduction_add_single src acc h hφ hacc (ix1 c)).trans ?_
  show ∑ k : Fin a, src (h.lift (ix1 c) k) = _
  refine Finset.sum_congr rfl fun k _ => congrArg src ?_
  funext d
  apply Fin.ext
  match d with
  | ⟨0, _⟩ => rfl
  | ⟨1, _⟩ => rfl

end Cert.Relayout

end
-- ==== Proof.KernelBody.lean ====
/-
  One grid point's body, read at one query of the block.

  The body loads the block's 65536 x- and y-coordinates, the sixteen cells' left knots, right knots and widths of each
  axis as 16 × 1 columns, and the four 16 × 16 corner tables.  It forms, for all sixteen y-cells at once (rows of a
  16 × 65536 array), the two y-weights of every query; then it walks the sixteen x-cells one after the other, each time
  computing the cell's two x-weights for every query (a 65536-vector) and adding, to two running 16 × 65536 arrays, the
  left weight times row i of a table (stood up as a column and spread over the queries) and then the right weight times
  row i of another; at the end it multiplies the two running arrays by the y-weights, adds them, and sums down the
  sixteen rows.  Read at one query p and one y-cell j every operation is pointwise or a re-layout, so the entry is a
  nest of thirty-two additions onto the zero word; as extended reals that nest is the sum over the x-cells of the
  left-knot terms plus the sum of the right-knot terms, which is the interpolant's own arrangement.
-/
import proofs.«163936_j44014824849725_1_alg».proof.Proof.Gen.KernelIdeal.Frame
import proofs.«163936_j44014824849725_1_alg».proof.Proof.Spec
import proofs.«163936_j44014824849725_1_alg».proof.Proof.Layout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx Cert.Relayout

/-- The offset of a whole-buffer access of a rank-1 buffer is zero on its axis. -/
theorem offset_zero_1 : (![0] : Fin 1 → Nat) = fun _ => 0 := funext fun a => by fin_cases a; rfl

/-- The offset of a whole-buffer access of a rank-2 buffer is zero on both axes. -/
theorem offset_zero_2 : (![0, 0] : Fin 2 → Nat) = fun _ => 0 := funext fun a => by fin_cases a <;> rfl

set_option maxHeartbeats 4000000 in
/-- What the body leaves in the output block, at query `p` of the block: the interpolant of the block's own x and y
    coordinates at `p` over the sixteen cells' data the body was given (left knots, right knots, widths as columns;
    the four corner tables).  The body's one store covers the block; its value is a sum down sixteen rows, and row `j`
    at `p` unfolds, operation by operation, to  (the x-cells' nest for the two lower corners) · (left y-weight of
    cell j) + (the nest for the two upper corners) · (right y-weight of cell j). -/
theorem out_apply (x0 x1 : Vec Ideal S65536 .f32) (x2 x3 x4 x5 x6 x7 : Vec Ideal S16x1 .f32)
    (x8 x9 x10 x11 : Vec Ideal S16x16 .f32) (p : Fin 65536) :
    out0_12 (F := Ideal) x0 x1 x2 x3 x4 x5 x6 x7 x8 x9 x10 x11 (ix1 p)
      = Cert.Bilinear.interpCells (x0 (ix1 p)) (x1 (ix1 p))
          (fun i => x2 (ix2 i (0 : Fin 1))) (fun i => x3 (ix2 i (0 : Fin 1))) (fun i => x4 (ix2 i (0 : Fin 1)))
          (fun j => x5 (ix2 j (0 : Fin 1))) (fun j => x6 (ix2 j (0 : Fin 1))) (fun j => x7 (ix2 j (0 : Fin 1)))
          (fun i j => x8 (ix2 i j)) (fun i j => x9 (ix2 i j)) (fun i j => x10 (ix2 i j)) (fun i j => x11 (ix2 i j)) := by
  unfold out0_12
  rw [View.canon_unit_zero offset_zero_1]
  simp only [View.ld_unit_zero (S := S65536) offset_zero_1, View.ld_unit_zero (S := S16x1) offset_zero_2,
    View.ld_unit_zero (S := S16x16) offset_zero_2]
  -- the last operation: the sum down the sixteen rows, one row per y-cell
  unfold k0_pay1
  refine (row_sum_apply _ _ _ _ _ p).trans ?_
  unfold Cert.Bilinear.interpCells
  refine Finset.sum_congr rfl fun j _ => ?_
  -- row j at query p: every operation read at that index
  simp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163,
    addf_apply, mulf_apply, subf_apply, divf_apply, maximumf_apply, broadcast_apply,
    shapeCast_self, shapeCast_a_1a_apply, shapeCast_1a_a_apply, broadcastTo_1b_ab_apply,
    column_broadcast_apply, vector_as_column_apply, row_slice_apply, extract_unit_apply, Ideal.ofBits_def]
  -- the two nests are the sums over the x-cells; the y-weights are the interpolant's by definition
  refine congrArg₂ (· + ·) (congrArg₂ (· * ·) ?_ ?_) (congrArg₂ (· * ·) ?_ ?_)
  · exact Cert.Bilinear.interleaved_sum
      (fun i => Cert.Bilinear.wLo (x0 (ix1 p)) (x2 (ix2 i (0 : Fin 1))) (x3 (ix2 i (0 : Fin 1))) (x4 (ix2 i (0 : Fin 1))) * x8 (ix2 i j))
      (fun i => Cert.Bilinear.wHi (x0 (ix1 p)) (x2 (ix2 i (0 : Fin 1))) (x3 (ix2 i (0 : Fin 1))) (x4 (ix2 i (0 : Fin 1))) * x9 (ix2 i j))
  · rfl
  · exact Cert.Bilinear.interleaved_sum
      (fun i => Cert.Bilinear.wLo (x0 (ix1 p)) (x2 (ix2 i (0 : Fin 1))) (x3 (ix2 i (0 : Fin 1))) (x4 (ix2 i (0 : Fin 1))) * x10 (ix2 i j))
      (fun i => Cert.Bilinear.wHi (x0 (ix1 p)) (x2 (ix2 i (0 : Fin 1))) (x3 (ix2 i (0 : Fin 1))) (x4 (ix2 i (0 : Fin 1))) * x11 (ix2 i j))
  · rfl

end Cert.KernelIdeal.Body

end
-- ==== Proof.KernelArray.lean ====
/-
  The kernel's whole result array is the interpolant.

  The grid has 64 points.  At point t the body sees block t (65536 queries) of the x- and of the y-coordinates, and,
  whole, ten small arrays made from the knots and the table before the region: on each axis the column of the sixteen
  left knots, of the sixteen right knots and of their differences (the cells' widths), and the four 16 × 16 corners of
  the 17 × 17 table.  Read at an index these are the knots at i and i + 1, their difference, and the table at
  (i, j), (i + 1, j), (i, j + 1), (i + 1, j + 1): exactly the cells' data the interpolant over seventeen knots is defined
  from.  So what point t writes back is block t of the interpolant of all queries, the 64 blocks tile the 4194304
  entries (entry n is in block n / 65536), and the result array is the interpolant at every query.
-/
import proofs.«163936_j44014824849725_1_alg».proof.Proof.Gen.KernelIdeal.Value
import proofs.«163936_j44014824849725_1_alg».proof.Proof.KernelBody
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The five arrays as launched on a core, at their literal types -/

/-- The queries' x-coordinates. -/
abbrev queriesX (c : Dev nD) : FVec Ideal S4194304 .f32 := m ((c : Thread nD τ).loc main_arg0)
/-- The queries' y-coordinates. -/
abbrev queriesY (c : Dev nD) : FVec Ideal S4194304 .f32 := m ((c : Thread nD τ).loc main_arg1)
/-- The seventeen x-knots. -/
abbrev knotsX (c : Dev nD) : FVec Ideal S17 .f32 := m ((c : Thread nD τ).loc main_arg2)
/-- The seventeen y-knots. -/
abbrev knotsY (c : Dev nD) : FVec Ideal S17 .f32 := m ((c : Thread nD τ).loc main_arg3)
/-- The 17 × 17 table of values at the knots. -/
abbrev table (c : Dev nD) : FVec Ideal S17x17 .f32 := m ((c : Thread nD τ).loc main_arg4)

/-! ## A column of sixteen of seventeen values, and a corner of the table, read at an index -/

/-- The first sixteen of seventeen values, laid as a column: row `i` is value `i`. -/
theorem colLo_apply {α : Type} (X : S17.Idx → α) (h1 : S17.Slices ![0] S16) (h2 : S16.ShapeCasts S16x1) (i : Fin 16) :
    shapeCast S16x1 (extractStridedSlice S16 ![0] X h1) h2 (ix2 i (0 : Fin 1)) = X (ix1 i.castSucc) := by
  refine (shapeCast_apply _ h2 (ix2 i (0 : Fin 1)) (ix1 i) ?_).trans ?_
  · rw [Shape.rowMajor_val_two, Shape.rowMajor_val_one]
    show i.val = i.val * 1 + 0
    omega
  · refine extractStridedSlice_apply _ X h1 (ix1 i) (ix1 i.castSucc) fun a => ?_
    match a with
    | ⟨0, _⟩ => show i.val = 0 + i.val; omega

/-- The last sixteen of seventeen values, laid as a column: row `i` is value `i + 1`. -/
theorem colHi_apply {α : Type} (X : S17.Idx → α) (h1 : S17.Slices ![1] S16) (h2 : S16.ShapeCasts S16x1) (i : Fin 16) :
    shapeCast S16x1 (extractStridedSlice S16 ![1] X h1) h2 (ix2 i (0 : Fin 1)) = X (ix1 i.succ) := by
  refine (shapeCast_apply _ h2 (ix2 i (0 : Fin 1)) (ix1 i) ?_).trans ?_
  · rw [Shape.rowMajor_val_two, Shape.rowMajor_val_one]
    show i.val = i.val * 1 + 0
    omega
  · refine extractStridedSlice_apply _ X h1 (ix1 i) (ix1 i.succ) fun a => ?_
    match a with
    | ⟨0, _⟩ => show i.val + 1 = 1 + i.val; omega

/-- A 16 × 16 corner of the 17 × 17 table at offsets `(o0, o1)`: entry `(i, j)` is the table's `(o0 + i, o1 + j)`. -/
theorem corner_apply {α : Type} (X : S17x17.Idx → α) (o0 o1 : Nat) (h : S17x17.Slices ![o0, o1] S16x16) (i j : Fin 16)
    (i' j' : Fin 17) (hi : i'.val = o0 + i.val) (hj : j'.val = o1 + j.val) :
    extractStridedSlice S16x16 ![o0, o1] X h (ix2 i j) = X (ix2 i' j') := by
  refine extractStridedSlice_apply _ X h (ix2 i j) (ix2 i' j') fun a => ?_
  match a with
  | ⟨0, _⟩ => exact hi
  | ⟨1, _⟩ => exact hj

/-! ## The ten arrays made from the knots and the table before the region, read at an index -/

section Made
variable (c : Dev nD)

/-- The left x-knots: row `i` of the column is x-knot `i`. -/
theorem V_xlo (i : Fin 16) :
    (V m c main_v1 : FVec Ideal S16x1 .f32) (ix2 i (0 : Fin 1)) = knotsX m c (ix1 i.castSucc) := by
  have e : (V m c main_v1 : FVec Ideal S16x1 .f32)
      = shapeCast S16x1 (extractStridedSlice S16 ![0] (V m c main_arg2 : FVec Ideal S17 .f32) slices_S17_S16_0) shapeCasts_S16_S16x1 := by
    dsimp only [Gen.V, Gen.hostOps0]; after_results; rfl
  rw [e, colLo_apply, V_main_arg2]

/-- The right x-knots: row `i` of the column is x-knot `i + 1`. -/
theorem V_xhi (i : Fin 16) :
    (V m c main_v3 : FVec Ideal S16x1 .f32) (ix2 i (0 : Fin 1)) = knotsX m c (ix1 i.succ) := by
  have e : (V m c main_v3 : FVec Ideal S16x1 .f32)
      = shapeCast S16x1 (extractStridedSlice S16 ![1] (V m c main_arg2 : FVec Ideal S17 .f32) slices_S17_S16_1) shapeCasts_S16_S16x1 := by
    dsimp only [Gen.V, Gen.hostOps0]; after_results; rfl
  rw [e, colHi_apply, V_main_arg2]

/-- The x-cells' widths: right knot minus left knot. -/
theorem V_xd (i : Fin 16) :
    (V m c main_v4 : FVec Ideal S16x1 .f32) (ix2 i (0 : Fin 1)) = knotsX m c (ix1 i.succ) - knotsX m c (ix1 i.castSucc) := by
  have e : (V m c main_v4 : FVec Ideal S16x1 .f32)
      = subf (F := Ideal) (s := S16x1) (φ := .f32)
          (shapeCast S16x1 (extractStridedSlice S16 ![1] (V m c main_arg2 : FVec Ideal S17 .f32) slices_S17_S16_1) shapeCasts_S16_S16x1)
          (shapeCast S16x1 (extractStridedSlice S16 ![0] (V m c main_arg2 : FVec Ideal S17 .f32) slices_S17_S16_0) shapeCasts_S16_S16x1) := by
    dsimp only [Gen.V, Gen.hostOps0]; after_results; rfl
  rw [e, subf_apply, colHi_apply, colLo_apply, V_main_arg2]

/-- The left y-knots: row `j` of the column is y-knot `j`. -/
theorem V_ylo (j : Fin 16) :
    (V m c main_v6 : FVec Ideal S16x1 .f32) (ix2 j (0 : Fin 1)) = knotsY m c (ix1 j.castSucc) := by
  have e : (V m c main_v6 : FVec Ideal S16x1 .f32)
      = shapeCast S16x1 (extractStridedSlice S16 ![0] (V m c main_arg3 : FVec Ideal S17 .f32) slices_S17_S16_0) shapeCasts_S16_S16x1 := by
    dsimp only [Gen.V, Gen.hostOps0]; after_results; rfl
  rw [e, colLo_apply, V_main_arg3]

/-- The right y-knots: row `j` of the column is y-knot `j + 1`. -/
theorem V_yhi (j : Fin 16) :
    (V m c main_v8 : FVec Ideal S16x1 .f32) (ix2 j (0 : Fin 1)) = knotsY m c (ix1 j.succ) := by
  have e : (V m c main_v8 : FVec Ideal S16x1 .f32)
      = shapeCast S16x1 (extractStridedSlice S16 ![1] (V m c main_arg3 : FVec Ideal S17 .f32) slices_S17_S16_1) shapeCasts_S16_S16x1 := by
    dsimp only [Gen.V, Gen.hostOps0]; after_results; rfl
  rw [e, colHi_apply, V_main_arg3]

/-- The y-cells' widths: right knot minus left knot. -/
theorem V_yd (j : Fin 16) :
    (V m c main_v9 : FVec Ideal S16x1 .f32) (ix2 j (0 : Fin 1)) = knotsY m c (ix1 j.succ) - knotsY m c (ix1 j.castSucc) := by
  have e : (V m c main_v9 : FVec Ideal S16x1 .f32)
      = subf (F := Ideal) (s := S16x1) (φ := .f32)
          (shapeCast S16x1 (extractStridedSlice S16 ![1] (V m c main_arg3 : FVec Ideal S17 .f32) slices_S17_S16_1) shapeCasts_S16_S16x1)
          (shapeCast S16x1 (extractStridedSlice S16 ![0] (V m c main_arg3 : FVec Ideal S17 .f32) slices_S17_S16_0) shapeCasts_S16_S16x1) := by
    dsimp only [Gen.V, Gen.hostOps0]; after_results; rfl
  rw [e, subf_apply, colHi_apply, colLo_apply, V_main_arg3]

/-- The table's corner at (left x-knot, left y-knot) of every cell pair. -/
theorem V_z00 (i j : Fin 16) :
    (V m c main_v10 : FVec Ideal S16x16 .f32) (ix2 i j) = table m c (ix2 i.castSucc j.castSucc) := by
  have e : (V m c main_v10 : FVec Ideal S16x16 .f32)
      = extractStridedSlice S16x16 ![0, 0] (V m c main_arg4 : FVec Ideal S17x17 .f32) slices_S17x17_S16x16_0_0 := by
    dsimp only [Gen.V, Gen.hostOps0]; after_results
  have hi : (i.castSucc : Fin 17).val = 0 + i.val := by show i.val = 0 + i.val; omega
  have hj : (j.castSucc : Fin 17).val = 0 + j.val := by show j.val = 0 + j.val; omega
  rw [e, corner_apply _ 0 0 _ i j i.castSucc j.castSucc hi hj, V_main_arg4]

/-- The table's corner at (right x-knot, left y-knot). -/
theorem V_z10 (i j : Fin 16) :
    (V m c main_v11 : FVec Ideal S16x16 .f32) (ix2 i j) = table m c (ix2 i.succ j.castSucc) := by
  have e : (V m c main_v11 : FVec Ideal S16x16 .f32)
      = extractStridedSlice S16x16 ![1, 0] (V m c main_arg4 : FVec Ideal S17x17 .f32) slices_S17x17_S16x16_1_0 := by
    dsimp only [Gen.V, Gen.hostOps0]; after_results
  have hi : (i.succ : Fin 17).val = 1 + i.val := by show i.val + 1 = 1 + i.val; omega
  have hj : (j.castSucc : Fin 17).val = 0 + j.val := by show j.val = 0 + j.val; omega
  rw [e, corner_apply _ 1 0 _ i j i.succ j.castSucc hi hj, V_main_arg4]

/-- The table's corner at (left x-knot, right y-knot). -/
theorem V_z01 (i j : Fin 16) :
    (V m c main_v12 : FVec Ideal S16x16 .f32) (ix2 i j) = table m c (ix2 i.castSucc j.succ) := by
  have e : (V m c main_v12 : FVec Ideal S16x16 .f32)
      = extractStridedSlice S16x16 ![0, 1] (V m c main_arg4 : FVec Ideal S17x17 .f32) slices_S17x17_S16x16_0_1 := by
    dsimp only [Gen.V, Gen.hostOps0]; after_results
  have hi : (i.castSucc : Fin 17).val = 0 + i.val := by show i.val = 0 + i.val; omega
  have hj : (j.succ : Fin 17).val = 1 + j.val := by show j.val + 1 = 1 + j.val; omega
  rw [e, corner_apply _ 0 1 _ i j i.castSucc j.succ hi hj, V_main_arg4]

/-- The table's corner at (right x-knot, right y-knot). -/
theorem V_z11 (i j : Fin 16) :
    (V m c main_v13 : FVec Ideal S16x16 .f32) (ix2 i j) = table m c (ix2 i.succ j.succ) := by
  have e : (V m c main_v13 : FVec Ideal S16x16 .f32)
      = extractStridedSlice S16x16 ![1, 1] (V m c main_arg4 : FVec Ideal S17x17 .f32) slices_S17x17_S16x16_1_1 := by
    dsimp only [Gen.V, Gen.hostOps0]; after_results
  have hi : (i.succ : Fin 17).val = 1 + i.val := by show i.val + 1 = 1 + i.val; omega
  have hj : (j.succ : Fin 17).val = 1 + j.val := by show j.val + 1 = 1 + j.val; omega
  rw [e, corner_apply _ 1 1 _ i j i.succ j.succ hi hj, V_main_arg4]

end Made

/-! ## The windows' blocks read at an index

An entry of a block sits in its array, on each axis, at the block index times the block size plus its coordinate inside
the block.  The two query windows and the result's window are at block `t` at grid point `t`; each of the ten made
arrays is one block, at block index zero on both axes at every point. -/

/-- The query windows and the result window are at block `t` at point `t` (decided over the 64 points). -/
theorem idx_query : ∀ t : Fin cfg0.N,
    win0_0.index t (0 : Fin 1) = t.val ∧ win0_1.index t (0 : Fin 1) = t.val ∧ win0_12.index t (0 : Fin 1) = t.val :=
  (by decide +kernel : ∀ t : Fin grid0.N, _)

/-- Each made array is one block: its window's block index is zero on both axes at every point (decided). -/
theorem idx_xlo : ∀ (t : Fin cfg0.N) (a : Fin 2), win0_2.index t a = 0 := (by decide +kernel : ∀ (t : Fin grid0.N) (a : Fin 2), _)
theorem idx_xhi : ∀ (t : Fin cfg0.N) (a : Fin 2), win0_3.index t a = 0 := (by decide +kernel : ∀ (t : Fin grid0.N) (a : Fin 2), _)
theorem idx_xd : ∀ (t : Fin cfg0.N) (a : Fin 2), win0_4.index t a = 0 := (by decide +kernel : ∀ (t : Fin grid0.N) (a : Fin 2), _)
theorem idx_ylo : ∀ (t : Fin cfg0.N) (a : Fin 2), win0_5.index t a = 0 := (by decide +kernel : ∀ (t : Fin grid0.N) (a : Fin 2), _)
theorem idx_yhi : ∀ (t : Fin cfg0.N) (a : Fin 2), win0_6.index t a = 0 := (by decide +kernel : ∀ (t : Fin grid0.N) (a : Fin 2), _)
theorem idx_yd : ∀ (t : Fin cfg0.N) (a : Fin 2), win0_7.index t a = 0 := (by decide +kernel : ∀ (t : Fin grid0.N) (a : Fin 2), _)
theorem idx_z00 : ∀ (t : Fin cfg0.N) (a : Fin 2), win0_8.index t a = 0 := (by decide +kernel : ∀ (t : Fin grid0.N) (a : Fin 2), _)
theorem idx_z10 : ∀ (t : Fin cfg0.N) (a : Fin 2), win0_9.index t a = 0 := (by decide +kernel : ∀ (t : Fin grid0.N) (a : Fin 2), _)
theorem idx_z01 : ∀ (t : Fin cfg0.N) (a : Fin 2), win0_10.index t a = 0 := (by decide +kernel : ∀ (t : Fin grid0.N) (a : Fin 2), _)
theorem idx_z11 : ∀ (t : Fin cfg0.N) (a : Fin 2), win0_11.index t a = 0 := (by decide +kernel : ∀ (t : Fin grid0.N) (a : Fin 2), _)

section Blocks
variable (c : Dev nD) (t : Fin cfg0.N)

/-- Query `q` of block `t` of the x-coordinates is query `65536 t + q` of the array. -/
theorem iblk_qx (q : Fin 65536) (k : Fin 4194304) (hk : k.val = t.val * 65536 + q.val) :
    (iblk m c 0 t : Vec Ideal S65536 .f32) (ix1 q) = (V m c main_arg0 : FVec Ideal S4194304 .f32) (ix1 k) := by
  unfold iblk
  rw [View.read_apply]
  show V m c main_arg0 _ = V m c main_arg0 _
  congr 1
  funext a
  apply Fin.ext
  match a with
  | ⟨0, _⟩ =>
    show win0_0.index t (0 : Fin 1) * 65536 + 1 * q.val = k.val
    rw [(idx_query t).1, hk]; omega

/-- Query `q` of block `t` of the y-coordinates is query `65536 t + q` of the array. -/
theorem iblk_qy (q : Fin 65536) (k : Fin 4194304) (hk : k.val = t.val * 65536 + q.val) :
    (iblk m c 1 t : Vec Ideal S65536 .f32) (ix1 q) = (V m c main_arg1 : FVec Ideal S4194304 .f32) (ix1 k) := by
  unfold iblk
  rw [View.read_apply]
  show V m c main_arg1 _ = V m c main_arg1 _
  congr 1
  funext a
  apply Fin.ext
  match a with
  | ⟨0, _⟩ =>
    show win0_1.index t (0 : Fin 1) * 65536 + 1 * q.val = k.val
    rw [(idx_query t).2.1, hk]; omega

/-- The block of the left x-knots' column at any point is the column. -/
theorem iblk_xlo (i : Fin 16) (j : Fin 1) :
    (iblk m c 2 t : Vec Ideal S16x1 .f32) (ix2 i j) = (V m c main_v1 : FVec Ideal S16x1 .f32) (ix2 i j) := by
  unfold iblk
  rw [View.read_apply]
  show V m c main_v1 _ = V m c main_v1 _
  congr 1
  refine Shape.idx_ext₂ ?_ ?_
  · show win0_2.index t (0 : Fin 2) * 16 + 1 * i.val = i.val
    rw [idx_xlo t 0]; omega
  · show win0_2.index t (1 : Fin 2) * 1 + 1 * j.val = j.val
    rw [idx_xlo t 1]; omega

/-- The block of the right x-knots' column at any point is the column. -/
theorem iblk_xhi (i : Fin 16) (j : Fin 1) :
    (iblk m c 3 t : Vec Ideal S16x1 .f32) (ix2 i j) = (V m c main_v3 : FVec Ideal S16x1 .f32) (ix2 i j) := by
  unfold iblk
  rw [View.read_apply]
  show V m c main_v3 _ = V m c main_v3 _
  congr 1
  refine Shape.idx_ext₂ ?_ ?_
  · show win0_3.index t (0 : Fin 2) * 16 + 1 * i.val = i.val
    rw [idx_xhi t 0]; omega
  · show win0_3.index t (1 : Fin 2) * 1 + 1 * j.val = j.val
    rw [idx_xhi t 1]; omega

/-- The block of the x-widths' column at any point is the column. -/
theorem iblk_xd (i : Fin 16) (j : Fin 1) :
    (iblk m c 4 t : Vec Ideal S16x1 .f32) (ix2 i j) = (V m c main_v4 : FVec Ideal S16x1 .f32) (ix2 i j) := by
  unfold iblk
  rw [View.read_apply]
  show V m c main_v4 _ = V m c main_v4 _
  congr 1
  refine Shape.idx_ext₂ ?_ ?_
  · show win0_4.index t (0 : Fin 2) * 16 + 1 * i.val = i.val
    rw [idx_xd t 0]; omega
  · show win0_4.index t (1 : Fin 2) * 1 + 1 * j.val = j.val
    rw [idx_xd t 1]; omega

/-- The block of the left y-knots' column at any point is the column. -/
theorem iblk_ylo (i : Fin 16) (j : Fin 1) :
    (iblk m c 5 t : Vec Ideal S16x1 .f32) (ix2 i j) = (V m c main_v6 : FVec Ideal S16x1 .f32) (ix2 i j) := by
  unfold iblk
  rw [View.read_apply]
  show V m c main_v6 _ = V m c main_v6 _
  congr 1
  refine Shape.idx_ext₂ ?_ ?_
  · show win0_5.index t (0 : Fin 2) * 16 + 1 * i.val = i.val
    rw [idx_ylo t 0]; omega
  · show win0_5.index t (1 : Fin 2) * 1 + 1 * j.val = j.val
    rw [idx_ylo t 1]; omega

/-- The block of the right y-knots' column at any point is the column. -/
theorem iblk_yhi (i : Fin 16) (j : Fin 1) :
    (iblk m c 6 t : Vec Ideal S16x1 .f32) (ix2 i j) = (V m c main_v8 : FVec Ideal S16x1 .f32) (ix2 i j) := by
  unfold iblk
  rw [View.read_apply]
  show V m c main_v8 _ = V m c main_v8 _
  congr 1
  refine Shape.idx_ext₂ ?_ ?_
  · show win0_6.index t (0 : Fin 2) * 16 + 1 * i.val = i.val
    rw [idx_yhi t 0]; omega
  · show win0_6.index t (1 : Fin 2) * 1 + 1 * j.val = j.val
    rw [idx_yhi t 1]; omega

/-- The block of the y-widths' column at any point is the column. -/
theorem iblk_yd (i : Fin 16) (j : Fin 1) :
    (iblk m c 7 t : Vec Ideal S16x1 .f32) (ix2 i j) = (V m c main_v9 : FVec Ideal S16x1 .f32) (ix2 i j) := by
  unfold iblk
  rw [View.read_apply]
  show V m c main_v9 _ = V m c main_v9 _
  congr 1
  refine Shape.idx_ext₂ ?_ ?_
  · show win0_7.index t (0 : Fin 2) * 16 + 1 * i.val = i.val
    rw [idx_yd t 0]; omega
  · show win0_7.index t (1 : Fin 2) * 1 + 1 * j.val = j.val
    rw [idx_yd t 1]; omega

/-- The block of the (left, left) corner table at any point is the table. -/
theorem iblk_z00 (i j : Fin 16) :
    (iblk m c 8 t : Vec Ideal S16x16 .f32) (ix2 i j) = (V m c main_v10 : FVec Ideal S16x16 .f32) (ix2 i j) := by
  unfold iblk
  rw [View.read_apply]
  show V m c main_v10 _ = V m c main_v10 _
  congr 1
  refine Shape.idx_ext₂ ?_ ?_
  · show win0_8.index t (0 : Fin 2) * 16 + 1 * i.val = i.val
    rw [idx_z00 t 0]; omega
  · show win0_8.index t (1 : Fin 2) * 16 + 1 * j.val = j.val
    rw [idx_z00 t 1]; omega

/-- The block of the (right, left) corner table at any point is the table. -/
theorem iblk_z10 (i j : Fin 16) :
    (iblk m c 9 t : Vec Ideal S16x16 .f32) (ix2 i j) = (V m c main_v11 : FVec Ideal S16x16 .f32) (ix2 i j) := by
  unfold iblk
  rw [View.read_apply]
  show V m c main_v11 _ = V m c main_v11 _
  congr 1
  refine Shape.idx_ext₂ ?_ ?_
  · show win0_9.index t (0 : Fin 2) * 16 + 1 * i.val = i.val
    rw [idx_z10 t 0]; omega
  · show win0_9.index t (1 : Fin 2) * 16 + 1 * j.val = j.val
    rw [idx_z10 t 1]; omega

/-- The block of the (left, right) corner table at any point is the table. -/
theorem iblk_z01 (i j : Fin 16) :
    (iblk m c 10 t : Vec Ideal S16x16 .f32) (ix2 i j) = (V m c main_v12 : FVec Ideal S16x16 .f32) (ix2 i j) := by
  unfold iblk
  rw [View.read_apply]
  show V m c main_v12 _ = V m c main_v12 _
  congr 1
  refine Shape.idx_ext₂ ?_ ?_
  · show win0_10.index t (0 : Fin 2) * 16 + 1 * i.val = i.val
    rw [idx_z01 t 0]; omega
  · show win0_10.index t (1 : Fin 2) * 16 + 1 * j.val = j.val
    rw [idx_z01 t 1]; omega

/-- The block of the (right, right) corner table at any point is the table. -/
theorem iblk_z11 (i j : Fin 16) :
    (iblk m c 11 t : Vec Ideal S16x16 .f32) (ix2 i j) = (V m c main_v13 : FVec Ideal S16x16 .f32) (ix2 i j) := by
  unfold iblk
  rw [View.read_apply]
  show V m c main_v13 _ = V m c main_v13 _
  congr 1
  refine Shape.idx_ext₂ ?_ ?_
  · show win0_11.index t (0 : Fin 2) * 16 + 1 * i.val = i.val
    rw [idx_z11 t 0]; omega
  · show win0_11.index t (1 : Fin 2) * 16 + 1 * j.val = j.val
    rw [idx_z11 t 1]; omega

end Blocks

/-! ## What one grid point writes back -/

/-- The interpolant depends only on the values it is given. -/
theorem interpCells_congr {xv xv' yv yv' : EReal} {a0 a0' a1 a1' ad ad' b0 b0' b1 b1' bd bd' : Fin 16 → EReal}
    {z00 z00' z10 z10' z01 z01' z11 z11' : Fin 16 → Fin 16 → EReal}
    (hx : xv = xv') (hy : yv = yv') (ha0 : ∀ i, a0 i = a0' i) (ha1 : ∀ i, a1 i = a1' i) (had : ∀ i, ad i = ad' i)
    (hb0 : ∀ j, b0 j = b0' j) (hb1 : ∀ j, b1 j = b1' j) (hbd : ∀ j, bd j = bd' j)
    (h00 : ∀ i j, z00 i j = z00' i j) (h10 : ∀ i j, z10 i j = z10' i j)
    (h01 : ∀ i j, z01 i j = z01' i j) (h11 : ∀ i j, z11 i j = z11' i j) :
    Cert.Bilinear.interpCells xv yv a0 a1 ad b0 b1 bd z00 z10 z01 z11
      = Cert.Bilinear.interpCells xv' yv' a0' a1' ad' b0' b1' bd' z00' z10' z01' z11' := by
  obtain rfl := hx
  obtain rfl := hy
  obtain rfl : a0 = a0' := funext ha0
  obtain rfl : a1 = a1' := funext ha1
  obtain rfl : ad = ad' := funext had
  obtain rfl : b0 = b0' := funext hb0
  obtain rfl : b1 = b1' := funext hb1
  obtain rfl : bd = bd' := funext hbd
  obtain rfl : z00 = z00' := funext fun i => funext (h00 i)
  obtain rfl : z10 = z10' := funext fun i => funext (h10 i)
  obtain rfl : z01 = z01' := funext fun i => funext (h01 i)
  obtain rfl : z11 = z11' := funext fun i => funext (h11 i)
  rfl

section Point
variable (c : Dev nD) (t : Fin cfg0.N)

/-- Entry `q` of the result's block at point `t` is entry `65536 t + q` of the result. -/
theorem emb_result (q : Fin 65536) (k : Fin 4194304) (hk : k.val = t.val * 65536 + q.val) :
    ((cfg0.win 12).blk t).view.emb (ix1 q) = (ix1 k : S4194304.Idx) := by
  funext a
  apply Fin.ext
  match a with
  | ⟨0, _⟩ =>
    show win0_12.index t (0 : Fin 1) * 65536 + 1 * q.val = k.val
    rw [(idx_query t).2.2, hk]; omega

/-- WHAT POINT `t` WRITES BACK is block `t` of the interpolant of the queries over the knots and the table: the body's
    result at query `q` of the block is the interpolant of the block's own coordinates over the staged cells' data, and
    those are the arrays' entries — the queries' at `65536 t + q`, the knots' at `i` and `i + 1`, the table's at the four
    corners of the cell pair. -/
theorem flushed_eq :
    (dats m 0 c).flushed 12 t = ((cfg0.win 12).blk t).view.read (Elt Ideal)
      (Cert.Bilinear.G (V m c main_arg0) (V m c main_arg1) (knotsX m c) (knotsY m c) (table m c)) := by
  rw [Value.flushed12]
  funext y
  obtain ⟨q, rfl⟩ : ∃ q : Fin 65536, y = ix1 q := ⟨y 0, eq_ix1 (n := 65536) y⟩
  have hN : cfg0.N = 64 := N_0
  have hk : t.val * 65536 + q.val < 4194304 := by have := t.isLt; omega
  rw [View.read_apply]
  show out0_12 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix1 q)
    = Cert.Bilinear.G (V m c main_arg0) (V m c main_arg1) (knotsX m c) (knotsY m c) (table m c) (((cfg0.win 12).blk t).view.emb (ix1 q))
  rw [emb_result t q ⟨_, hk⟩ rfl]
  refine (Cert.KernelIdeal.Body.out_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) q).trans ?_
  unfold Cert.Bilinear.G Cert.Bilinear.interp
  exact interpCells_congr (iblk_qx m c t q ⟨_, hk⟩ rfl) (iblk_qy m c t q ⟨_, hk⟩ rfl)
    (fun i => (iblk_xlo m c t i 0).trans (V_xlo m c i))
    (fun i => (iblk_xhi m c t i 0).trans (V_xhi m c i))
    (fun i => (iblk_xd m c t i 0).trans (V_xd m c i))
    (fun j => (iblk_ylo m c t j 0).trans (V_ylo m c j))
    (fun j => (iblk_yhi m c t j 0).trans (V_yhi m c j))
    (fun j => (iblk_yd m c t j 0).trans (V_yd m c j))
    (fun i j => (iblk_z00 m c t i j).trans (V_z00 m c i j))
    (fun i j => (iblk_z10 m c t i j).trans (V_z10 m c i j))
    (fun i j => (iblk_z01 m c t i j).trans (V_z01 m c i j))
    (fun i j => (iblk_z11 m c t i j).trans (V_z11 m c i j))

end Point

/-! ## The blocks cover the result -/

/-- An entry of the result lies in point `t`'s block iff its position is in the block's range. -/
theorem mem_blk (t : Fin cfg0.N) (i : S4194304.Idx) :
    i ∈ ((cfg0.win 12).blk t).view.set
      ↔ ∀ a : Fin 1, win0_12.index t a * S65536.size a ≤ (i a).val ∧ (i a).val < win0_12.index t a * S65536.size a + S65536.size a := by
  show i ∈ ((View.whole main_v14).slice (win0_12.rect t)).set ↔ _
  rw [View.set_slice_whole, Rect.mem_set_unit]
  exact Iff.rfl

/-- Entry `n` of the result is written back by point `n / 65536`. -/
theorem cover (i : S4194304.Idx) : ∃ t : Fin cfg0.N, (cfg0.win 12).flush t = true ∧ i ∈ ((cfg0.win 12).blk t).view.set := by
  have hN : cfg0.N = 64 := N_0
  have hi : (i 0).val < 4194304 := (i 0).isLt
  refine ⟨⟨(i 0).val / 65536, by omega⟩, flush0_12 _, ?_⟩
  rw [mem_blk]
  intro a
  match a with
  | ⟨0, _⟩ =>
    show win0_12.index _ (0 : Fin 1) * 65536 ≤ (i 0).val ∧ (i 0).val < win0_12.index _ (0 : Fin 1) * 65536 + 65536
    rw [(idx_query _).2.2]
    show (i 0).val / 65536 * 65536 ≤ (i 0).val ∧ (i 0).val < (i 0).val / 65536 * 65536 + 65536
    omega

/-! ## The result array and the run -/

/-- THE RESULT after the run: the interpolant of every query over the knots and the table. -/
theorem final (c : Dev nD) :
    (dats m 0 c).arrAt 12 cfg0.N = Cert.Bilinear.G (queriesX m c) (queriesY m c) (knotsX m c) (knotsY m c) (table m c) := by
  have h := (dats m 0 c).arrAt_eq_of_cover 12
    (Cert.Bilinear.G (V m c main_arg0) (V m c main_arg1) (knotsX m c) (knotsY m c) (table m c))
    (fun t _ => flushed_eq m c t) cover
  rw [h, V_main_arg0, V_main_arg1]

/-- The run, read: the result array is the interpolant of the queries over the knots and the table, the five arguments
    unchanged. -/
theorem run : θ_run (defs (F := Ideal)) (onTc (τ := τ) (main (F := Ideal))) ⟨m, fun _ => 0, ρ⟩ fun r => ∀ c : Dev nD,
      r.2.mem ((c : Thread nD τ).loc main_v14) = Cert.Bilinear.G (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Whole

end
-- ==== Proof.RefIsSpec.lean ====
/-
  The reference program computes the interpolant G of the specification.

  The reference first builds, for a query n and a cell i of the x axis, the cell's ramp
  (max (x - p) 0 - max (x - q) 0) / (q - p)  and the relative position  (x - p) / (q - p),  where p and q are the
  knots i and i + 1, read out of the seventeen knots by two slices; the two weights of the cell are the ramp times
  (1 - position) and the ramp times the position.  The same is done for the y axis.  Two matrix products sum the
  x-weights against the four shifted 16 × 16 corners of the table over the x-cells, the results are multiplied by the
  y-weights, added, and summed over the y-cells, starting from the zero word.

  This is the specification's own arrangement of the double sum, so the proof only reads each stage at an index:
  every broadcast and slice is an index map, each composite of them is identified with the index built from the
  query number and the cell number (the left knot of cell i is knot i.castSucc, the right knot is knot i.succ), and
  the only law used is 0 + s = s for the initial value of the last sum.
-/
import proofs.«163936_j44014824849725_1_alg».proof.Proof.Gen.ReferenceIdeal.Read
import proofs.«163936_j44014824849725_1_alg».proof.Proof.Spec
import Idealize.ShloMosaic.Lib.ValueIdx
import Idealize.ShloMosaic.PureOps.Ideal
import Idealize.ShloMosaic.PureOps.Ideal.Laws

noncomputable section

namespace Cert.ReferenceIdeal.RefSpec

open Cert.ReferenceIdeal Cert.ReferenceIdeal.Read Cert.Bilinear Idealize.ShloMosaic Idealize.ShloMosaic.ValueIdx

/-- Two rank-1 indices with the same coordinate are equal. -/
local macro "idx1" : tactic => `(tactic| (funext a; match a with | ⟨0, _⟩ => rfl))
/-- Two rank-2 indices with the same coordinates are equal. -/
local macro "idx2" : tactic => `(tactic| (funext a; match a with | ⟨0, _⟩ => rfl | ⟨1, _⟩ => rfl))

variable (x0 x1 : FVec Ideal S4194304 .f32) (x2 x3 : FVec Ideal S17 .f32) (x4 : FVec Ideal S17x17 .f32)
variable (n : Fin 4194304) (i j : Fin 16)

/-! ### The x axis: the query coordinate, the two knots of cell i, the cell's width, the constants -/

theorem v9_at : val_main_v9 (F := Ideal) x0 (ix2 n i) = x0 (ix1 n) := by
  rw [val_main_v9_apply, val_main_v6_apply]; exact congrArg x0 (by idx1)
theorem v14_at : val_main_v14 (F := Ideal) x0 (ix2 n i) = x0 (ix1 n) := by
  rw [val_main_v14_apply, val_main_v6_apply]; exact congrArg x0 (by idx1)
theorem v37_at : val_main_v37 (F := Ideal) x0 (ix2 n i) = x0 (ix1 n) := by
  rw [val_main_v37_apply, val_main_v6_apply]; exact congrArg x0 (by idx1)

theorem v10_at : val_main_v10 (F := Ideal) x2 (ix2 n i) = x2 (ix1 i.castSucc) := by
  rw [val_main_v10_apply, val_main_v8_apply, val_main_v0_apply]; exact congrArg x2 (by idx1)
theorem v38_at : val_main_v38 (F := Ideal) x2 (ix2 n i) = x2 (ix1 i.castSucc) := by
  rw [val_main_v38_apply, val_main_v36_apply, val_main_v0_apply]; exact congrArg x2 (by idx1)
theorem v15_at : val_main_v15 (F := Ideal) x2 (ix2 n i) = x2 (ix1 i.succ) := by
  rw [val_main_v15_apply, val_main_v13_apply, val_main_v1_apply]
  exact congrArg x2 (by funext a; match a with | ⟨0, _⟩ => exact Fin.ext (by show 1 + i.val = i.val + 1; omega))

theorem v20_at : val_main_v20 (F := Ideal) x2 (ix2 n i) = x2 (ix1 i.succ) - x2 (ix1 i.castSucc) := by
  rw [val_main_v20_apply, val_main_v19_apply, val_main_v4_apply, val_main_v1_apply, val_main_v0_apply]
  have h1 : idx_main_v1 (idx_main_v19 (idx_main_v20 (ix2 n i))) = ix1 i.succ := by
    funext a; match a with | ⟨0, _⟩ => exact Fin.ext (by show 1 + i.val = i.val + 1; omega)
  have h0 : idx_main_v0 (idx_main_v19 (idx_main_v20 (ix2 n i))) = ix1 i.castSucc := by idx1
  rw [h1, h0]; rfl
theorem v41_at : val_main_v41 (F := Ideal) x2 (ix2 n i) = x2 (ix1 i.succ) - x2 (ix1 i.castSucc) := by
  rw [val_main_v41_apply, val_main_v40_apply, val_main_v4_apply, val_main_v1_apply, val_main_v0_apply]
  have h1 : idx_main_v1 (idx_main_v40 (idx_main_v41 (ix2 n i))) = ix1 i.succ := by
    funext a; match a with | ⟨0, _⟩ => exact Fin.ext (by show 1 + i.val = i.val + 1; omega)
  have h0 : idx_main_v0 (idx_main_v40 (idx_main_v41 (ix2 n i))) = ix1 i.castSucc := by idx1
  rw [h1, h0]; rfl

theorem call0_at : val_main_call0_v0 (F := Ideal) (ix2 n i) = Ideal.ofBits .f32 0x00000000#32 := by
  rw [val_main_call0_v0_apply, val_main_call0_cst_apply]; rfl
theorem call1_at : val_main_call1_v0 (F := Ideal) (ix2 n i) = Ideal.ofBits .f32 0x00000000#32 := by
  rw [val_main_call1_v0_apply, val_main_call1_cst_apply]; rfl
theorem v50_at : val_main_v50 (F := Ideal) (ix2 n i) = Ideal.ofBits .f32 0x3F800000#32 := by
  rw [val_main_v50_apply, val_main_cst_apply]; rfl

/-- The ramp of x-cell i at query n. -/
theorem rampx_at : val_main_v21 (F := Ideal) x0 x2 (ix2 n i)
    = ramp (x0 (ix1 n)) (x2 (ix1 i.castSucc)) (x2 (ix1 i.succ)) (x2 (ix1 i.succ) - x2 (ix1 i.castSucc)) := by
  rw [val_main_v21_apply, val_main_v18_apply, val_main_v12_apply, val_main_v17_apply, val_main_v11_apply,
    val_main_v16_apply, v9_at, v10_at, v14_at, v15_at, v20_at, call0_at, call1_at]
  rfl

/-- The position of query n relative to the left knot of x-cell i. -/
theorem posx_at : val_main_v42 (F := Ideal) x0 x2 (ix2 n i)
    = pos (x0 (ix1 n)) (x2 (ix1 i.castSucc)) (x2 (ix1 i.succ) - x2 (ix1 i.castSucc)) := by
  rw [val_main_v42_apply, val_main_v39_apply, v37_at, v38_at, v41_at]
  rfl

/-- The weight of the left knot of x-cell i at query n. -/
theorem wLox_at : val_main_v52 (F := Ideal) x0 x2 (ix2 n i)
    = wLo (x0 (ix1 n)) (x2 (ix1 i.castSucc)) (x2 (ix1 i.succ)) (x2 (ix1 i.succ) - x2 (ix1 i.castSucc)) := by
  rw [val_main_v52_apply, val_main_v51_apply, rampx_at, posx_at, v50_at]
  rfl

/-- The weight of the right knot of x-cell i at query n. -/
theorem wHix_at : val_main_v53 (F := Ideal) x0 x2 (ix2 n i)
    = wHi (x0 (ix1 n)) (x2 (ix1 i.castSucc)) (x2 (ix1 i.succ)) (x2 (ix1 i.succ) - x2 (ix1 i.castSucc)) := by
  rw [val_main_v53_apply, rampx_at, posx_at]
  rfl

/-! ### The y axis, cell j: the same stages over the second coordinate array and the second knots -/

theorem v23_at : val_main_v23 (F := Ideal) x1 (ix2 n j) = x1 (ix1 n) := by
  rw [val_main_v23_apply, val_main_v7_apply]; exact congrArg x1 (by idx1)
theorem v28_at : val_main_v28 (F := Ideal) x1 (ix2 n j) = x1 (ix1 n) := by
  rw [val_main_v28_apply, val_main_v7_apply]; exact congrArg x1 (by idx1)
theorem v44_at : val_main_v44 (F := Ideal) x1 (ix2 n j) = x1 (ix1 n) := by
  rw [val_main_v44_apply, val_main_v7_apply]; exact congrArg x1 (by idx1)

theorem v24_at : val_main_v24 (F := Ideal) x3 (ix2 n j) = x3 (ix1 j.castSucc) := by
  rw [val_main_v24_apply, val_main_v22_apply, val_main_v2_apply]; exact congrArg x3 (by idx1)
theorem v45_at : val_main_v45 (F := Ideal) x3 (ix2 n j) = x3 (ix1 j.castSucc) := by
  rw [val_main_v45_apply, val_main_v43_apply, val_main_v2_apply]; exact congrArg x3 (by idx1)
theorem v29_at : val_main_v29 (F := Ideal) x3 (ix2 n j) = x3 (ix1 j.succ) := by
  rw [val_main_v29_apply, val_main_v27_apply, val_main_v3_apply]
  exact congrArg x3 (by funext a; match a with | ⟨0, _⟩ => exact Fin.ext (by show 1 + j.val = j.val + 1; omega))

theorem v34_at : val_main_v34 (F := Ideal) x3 (ix2 n j) = x3 (ix1 j.succ) - x3 (ix1 j.castSucc) := by
  rw [val_main_v34_apply, val_main_v33_apply, val_main_v5_apply, val_main_v3_apply, val_main_v2_apply]
  have h1 : idx_main_v3 (idx_main_v33 (idx_main_v34 (ix2 n j))) = ix1 j.succ := by
    funext a; match a with | ⟨0, _⟩ => exact Fin.ext (by show 1 + j.val = j.val + 1; omega)
  have h0 : idx_main_v2 (idx_main_v33 (idx_main_v34 (ix2 n j))) = ix1 j.castSucc := by idx1
  rw [h1, h0]; rfl
theorem v48_at : val_main_v48 (F := Ideal) x3 (ix2 n j) = x3 (ix1 j.succ) - x3 (ix1 j.castSucc) := by
  rw [val_main_v48_apply, val_main_v47_apply, val_main_v5_apply, val_main_v3_apply, val_main_v2_apply]
  have h1 : idx_main_v3 (idx_main_v47 (idx_main_v48 (ix2 n j))) = ix1 j.succ := by
    funext a; match a with | ⟨0, _⟩ => exact Fin.ext (by show 1 + j.val = j.val + 1; omega)
  have h0 : idx_main_v2 (idx_main_v47 (idx_main_v48 (ix2 n j))) = ix1 j.castSucc := by idx1
  rw [h1, h0]; rfl

theorem call2_at : val_main_call2_v0 (F := Ideal) (ix2 n j) = Ideal.ofBits .f32 0x00000000#32 := by
  rw [val_main_call2_v0_apply, val_main_call2_cst_apply]; rfl
theorem call3_at : val_main_call3_v0 (F := Ideal) (ix2 n j) = Ideal.ofBits .f32 0x00000000#32 := by
  rw [val_main_call3_v0_apply, val_main_call3_cst_apply]; rfl
theorem v54_at : val_main_v54 (F := Ideal) (ix2 n j) = Ideal.ofBits .f32 0x3F800000#32 := by
  rw [val_main_v54_apply, val_main_cst_0_apply]; rfl

/-- The ramp of y-cell j at query n. -/
theorem rampy_at : val_main_v35 (F := Ideal) x1 x3 (ix2 n j)
    = ramp (x1 (ix1 n)) (x3 (ix1 j.castSucc)) (x3 (ix1 j.succ)) (x3 (ix1 j.succ) - x3 (ix1 j.castSucc)) := by
  rw [val_main_v35_apply, val_main_v32_apply, val_main_v26_apply, val_main_v31_apply, val_main_v25_apply,
    val_main_v30_apply, v23_at, v24_at, v28_at, v29_at, v34_at, call2_at, call3_at]
  rfl

/-- The position of query n relative to the left knot of y-cell j. -/
theorem posy_at : val_main_v49 (F := Ideal) x1 x3 (ix2 n j)
    = pos (x1 (ix1 n)) (x3 (ix1 j.castSucc)) (x3 (ix1 j.succ) - x3 (ix1 j.castSucc)) := by
  rw [val_main_v49_apply, val_main_v46_apply, v44_at, v45_at, v48_at]
  rfl

/-- The weight of the left knot of y-cell j at query n. -/
theorem wLoy_at : val_main_v56 (F := Ideal) x1 x3 (ix2 n j)
    = wLo (x1 (ix1 n)) (x3 (ix1 j.castSucc)) (x3 (ix1 j.succ)) (x3 (ix1 j.succ) - x3 (ix1 j.castSucc)) := by
  rw [val_main_v56_apply, val_main_v55_apply, rampy_at, posy_at, v54_at]
  rfl

/-- The weight of the right knot of y-cell j at query n. -/
theorem wHiy_at : val_main_v57 (F := Ideal) x1 x3 (ix2 n j)
    = wHi (x1 (ix1 n)) (x3 (ix1 j.castSucc)) (x3 (ix1 j.succ)) (x3 (ix1 j.succ) - x3 (ix1 j.castSucc)) := by
  rw [val_main_v57_apply, rampy_at, posy_at]
  rfl

/-! ### The four corner tables: the 16 × 16 slices of the table of values, shifted by 0 or 1 on each axis -/

theorem z00_at : val_main_v58 (F := Ideal) x4 (ix2 i j) = x4 (ix2 i.castSucc j.castSucc) := by
  rw [val_main_v58_apply]; exact congrArg x4 (by idx2)
theorem z10_at : val_main_v59 (F := Ideal) x4 (ix2 i j) = x4 (ix2 i.succ j.castSucc) := by
  rw [val_main_v59_apply]
  exact congrArg x4 (by
    funext a
    match a with
    | ⟨0, _⟩ => exact Fin.ext (by show 1 + i.val = i.val + 1; omega)
    | ⟨1, _⟩ => rfl)
theorem z01_at : val_main_v60 (F := Ideal) x4 (ix2 i j) = x4 (ix2 i.castSucc j.succ) := by
  rw [val_main_v60_apply]
  exact congrArg x4 (by
    funext a
    match a with
    | ⟨0, _⟩ => rfl
    | ⟨1, _⟩ => exact Fin.ext (by show 1 + j.val = j.val + 1; omega))
theorem z11_at : val_main_v61 (F := Ideal) x4 (ix2 i j) = x4 (ix2 i.succ j.succ) := by
  rw [val_main_v61_apply]
  exact congrArg x4 (by
    funext a
    match a with
    | ⟨0, _⟩ => exact Fin.ext (by show 1 + i.val = i.val + 1; omega)
    | ⟨1, _⟩ => exact Fin.ext (by show 1 + j.val = j.val + 1; omega))

/-! ### The four matrix products: sums over the x-cells of a weight times a corner value -/

theorem dot00_at : val_main_v62 (F := Ideal) x0 x2 x4 (ix2 n j)
    = ∑ i : Fin 16, wLo (x0 (ix1 n)) (x2 (ix1 i.castSucc)) (x2 (ix1 i.succ)) (x2 (ix1 i.succ) - x2 (ix1 i.castSucc))
        * x4 (ix2 i.castSucc j.castSucc) := by
  rw [val_main_v62_apply]
  refine Finset.sum_congr rfl (fun k _ => ?_)
  have hl : lidx_main_v62 (ix2 n j) k = ix2 n k := by idx2
  have hr : ridx_main_v62 (ix2 n j) k = ix2 k j := by idx2
  rw [hl, hr, wLox_at, z00_at]

theorem dot10_at : val_main_v63 (F := Ideal) x0 x2 x4 (ix2 n j)
    = ∑ i : Fin 16, wHi (x0 (ix1 n)) (x2 (ix1 i.castSucc)) (x2 (ix1 i.succ)) (x2 (ix1 i.succ) - x2 (ix1 i.castSucc))
        * x4 (ix2 i.succ j.castSucc) := by
  rw [val_main_v63_apply]
  refine Finset.sum_congr rfl (fun k _ => ?_)
  have hl : lidx_main_v63 (ix2 n j) k = ix2 n k := by idx2
  have hr : ridx_main_v63 (ix2 n j) k = ix2 k j := by idx2
  rw [hl, hr, wHix_at, z10_at]

theorem dot01_at : val_main_v65 (F := Ideal) x0 x2 x4 (ix2 n j)
    = ∑ i : Fin 16, wLo (x0 (ix1 n)) (x2 (ix1 i.castSucc)) (x2 (ix1 i.succ)) (x2 (ix1 i.succ) - x2 (ix1 i.castSucc))
        * x4 (ix2 i.castSucc j.succ) := by
  rw [val_main_v65_apply]
  refine Finset.sum_congr rfl (fun k _ => ?_)
  have hl : lidx_main_v65 (ix2 n j) k = ix2 n k := by idx2
  have hr : ridx_main_v65 (ix2 n j) k = ix2 k j := by idx2
  rw [hl, hr, wLox_at, z01_at]

theorem dot11_at : val_main_v66 (F := Ideal) x0 x2 x4 (ix2 n j)
    = ∑ i : Fin 16, wHi (x0 (ix1 n)) (x2 (ix1 i.castSucc)) (x2 (ix1 i.succ)) (x2 (ix1 i.succ) - x2 (ix1 i.castSucc))
        * x4 (ix2 i.succ j.succ) := by
  rw [val_main_v66_apply]
  refine Finset.sum_congr rfl (fun k _ => ?_)
  have hl : lidx_main_v66 (ix2 n j) k = ix2 n k := by idx2
  have hr : ridx_main_v66 (ix2 n j) k = ix2 k j := by idx2
  rw [hl, hr, wHix_at, z11_at]

/-! ### The whole result -/

/-- The reference's result array is the specification's G: at query n the last stage is the zero word plus the sum
    over the y-cells j of the two products, each a sum over the x-cells times a y-weight. -/
theorem val_eq_G : val_main_v71 (F := Ideal) x0 x1 x2 x3 x4 = G x0 x1 x2 x3 x4 := by
  funext q
  obtain ⟨n, rfl⟩ : ∃ n : Fin 4194304, q = ix1 n := ⟨q 0, eq_ix1 q⟩
  rw [val_main_v71_apply, val_main_cst_1_apply, Ideal.ofBits_def, Ideal.ofBits_zero_f32, zero_add]
  simp only [G, Cert.Bilinear.interp, Cert.Bilinear.interpCells]
  refine Finset.sum_congr rfl (fun j _ => ?_)
  have hj : idx_main_v71 (ix1 n) j = ix2 n j := by idx2
  rw [hj, val_main_v70_apply, val_main_v68_apply, val_main_v69_apply, val_main_v64_apply, val_main_v67_apply,
    dot00_at, dot10_at, dot01_at, dot11_at, wLoy_at, wHiy_at]
  rfl

end Cert.ReferenceIdeal.RefSpec

end
-- ==== Proof.lean ====
/-
  The certificate of the piecewise-bilinear interpolant summed over every grid cell.

  Seventeen knots on each axis cut the plane into 16 × 16 cells.  For a query (x, y), each cell of an axis contributes
  a ramp  (max (v - p) 0 - max (v - q) 0) / (q - p)  and a relative position  (v - p) / (q - p); the ramp times one
  minus the position weighs the cell's left knot, the ramp times the position its right knot.  The result at the query
  is the sum, over ALL pairs of an x-cell and a y-cell, of the four corner values of the table, each times its x-weight
  and its y-weight (Proof/Spec.lean states it once, as `Cert.Bilinear.G`).

  The reference computes it with two pairs of matrix products over the x-cells followed by a sum over the y-cells
  (Proof/RefIsSpec.lean); the kernel, block of 65536 queries by block, accumulates the x-cells one after the other into
  two running arrays and sums down the y-cells at the end (Proof/KernelBody.lean reads one block's body at one query;
  Proof/KernelArray.lean reads the knots' and the table's slices the program prepares, the blocks, and puts the 64
  blocks together).  The two arrangements differ only in the order and grouping of additions of extended reals, which
  form a commutative monoid under +, so they agree for all inputs; the precondition is never opened.  The
  idealization rewrote nothing, so its preservation claim is trivial, and the three frames are the generated ones.
-/
import proofs.«163936_j44014824849725_1_alg».proof.Defs
import proofs.«163936_j44014824849725_1_alg».proof.Proof.Gen.Kernel
import proofs.«163936_j44014824849725_1_alg».proof.Proof.Gen.Kernel.Skeleton
import proofs.«163936_j44014824849725_1_alg».proof.Proof.Gen.Kernel.Launch
import proofs.«163936_j44014824849725_1_alg».proof.Proof.Gen.Kernel.Points
import proofs.«163936_j44014824849725_1_alg».proof.Proof.Gen.Kernel.Frame
import proofs.«163936_j44014824849725_1_alg».proof.Proof.Gen.KernelIdeal
import proofs.«163936_j44014824849725_1_alg».proof.Proof.Gen.KernelIdeal.Skeleton
import proofs.«163936_j44014824849725_1_alg».proof.Proof.Gen.KernelIdeal.Launch
import proofs.«163936_j44014824849725_1_alg».proof.Proof.Gen.KernelIdeal.Points
import proofs.«163936_j44014824849725_1_alg».proof.Proof.Gen.KernelIdeal.Frame
import proofs.«163936_j44014824849725_1_alg».proof.Proof.Gen.ReferenceIdeal
import proofs.«163936_j44014824849725_1_alg».proof.Proof.Gen.Pre_finite_inputs
import proofs.«163936_j44014824849725_1_alg».proof.Proof.Gen.KernelIdeal.Value
import proofs.«163936_j44014824849725_1_alg».proof.Proof.Gen.ReferenceIdeal.Run
import proofs.«163936_j44014824849725_1_alg».proof.Proof.Gen.ReferenceIdeal.Read
import proofs.«163936_j44014824849725_1_alg».proof.Proof.Spec
import proofs.«163936_j44014824849725_1_alg».proof.Proof.KernelArray
import proofs.«163936_j44014824849725_1_alg».proof.Proof.RefIsSpec
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Over the extended reals both programs end with the interpolant `G` of the arguments at every query: the kernel block
    by block (each block the interpolant of its own 65536 queries over the shared knots and table), the reference as its
    composed host operations; the arguments agree, so the two arrays are one. -/
theorem algebraic : Cert.algebraic_KernelIdeal_ReferenceIdeal := by
  intro m ρ m' ρ' _ hagree
  refine ⟨fun c => Cert.Bilinear.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v71_eq, Cert.ReferenceIdeal.RefSpec.val_eq_G,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
